-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1000000 32) (main_arg2 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1472x64 : Shape := ⟨2, ![1472, 64]⟩
abbrev S1001472x64 : Shape := ⟨2, ![1001472, 64]⟩
abbrev S1472 : Shape := ⟨1, ![1472]⟩
abbrev S1001472 : Shape := ⟨1, ![1001472]⟩
abbrev S1x1001472 : Shape := ⟨2, ![1, 1001472]⟩
abbrev S100000x1 : Shape := ⟨2, ![100000, 1]⟩
abbrev S1x2048 : Shape := ⟨2, ![1, 2048]⟩
abbrev S2048x64 : Shape := ⟨2, ![2048, 64]⟩
abbrev S2000x64 : Shape := ⟨2, ![2000, 64]⟩
abbrev S2000x1 : Shape := ⟨2, ![2000, 1]⟩
abbrev S2000x2048 : Shape := ⟨2, ![2000, 2048]⟩
abbrev S2000 : Shape := ⟨1, ![2000]⟩

abbrev nBuf : Space → Nat
  | .hbm => 34
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S100000x64, .bf16⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S1000000x64, .bf16⟩
  | .hbm, ⟨13, _⟩ => ⟨S_, .bf16⟩
  | .hbm, ⟨14, _⟩ => ⟨S1472x64, .bf16⟩
  | .hbm, ⟨15, _⟩ => ⟨S1001472x64, .bf16⟩
  | .hbm, ⟨16, _⟩ => ⟨S_, .i32⟩
  | .hbm, ⟨17, _⟩ => ⟨S1472, .i32⟩
  | .hbm, ⟨18, _⟩ => ⟨S1001472, .i32⟩
  | .hbm, ⟨19, _⟩ => ⟨S1x1001472, .i32⟩
  | .hbm, ⟨20, _⟩ => ⟨S100000x64, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .i1⟩
  | .hbm, ⟨32, _⟩ => ⟨S100000x64, .f32⟩
  | .hbm, ⟨33, _⟩ => ⟨S100000x64, .f32⟩
  | .local _ .vmem, ⟨0, _⟩ => ⟨S1x2048, .i32⟩
  | .local _ .vmem, ⟨1, _⟩ => ⟨S1x2048, .i32⟩
  | .local _ .vmem, ⟨2, _⟩ => ⟨S2048x64, .bf16⟩
  | .local _ .vmem, ⟨3, _⟩ => ⟨S2048x64, .bf16⟩
  | .local _ .vmem, ⟨4, _⟩ => ⟨S2000x64, .f32⟩
  | .local _ .vmem, ⟨5, _⟩ => ⟨S2000x64, .f32⟩
  | .local _ .vmem, ⟨6, _⟩ => ⟨S2000x1, .f32⟩
  | .local _ .vmem, ⟨7, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![50, 489], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1472x64 : S_.BroadcastsInDim S1472x64 (![] : Fin 0 → Fin S1472x64.rank)
  concatenates_S1000000x64_S1472x64_S1001472x64_d0 : Shape.Concatenates [S1000000x64, S1472x64] S1001472x64 0
  bcast_S_S1472 : S_.BroadcastsInDim S1472 (![] : Fin 0 → Fin S1472.rank)
  concatenates_S1000000_S1472_S1001472_d0 : Shape.Concatenates [S1000000, S1472] S1001472 0
  shapeCasts_S1001472_S1x1001472 : S1001472.ShapeCasts S1x1001472
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  iota_S2000x1_d0_w32 : S2000x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2000x2048 : S1x2048.Broadcasts S2000x2048
  broadcasts_S2000x1_S2000x2048 : S2000x1.Broadcasts S2000x2048
  natLt_1_32 : 1 < 32
  shapeCasts_S2000x64_S2000x64 : S2000x64.ShapeCasts S2000x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S2000x1_S2000x1 : S2000x1.ShapeCasts S2000x1
  reduces_S2000x2048_S2000 : S2000x2048.Reduces [1] S2000
  shapeCasts_S2000_S2000x1 : S2000.ShapeCasts S2000x1
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  gather_S100000x64_S1000000x1_S1000000x64_1_0_n_n_0_1_164_wf : GatherDims.WF S100000x64 S1000000x1 S1000000x64 [1] [0] [] [0] [] 1 ![1, 64]
  dot_S2000x2048_S2048x64_S2000x64_1_0_0_1_n_n_wf : DotDims.WF S2000x2048 S2048x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x1001472.size a
  hwx0_0 : ∀ i : grid0.Coords, EltTy.bits .i32 = 32 ∨ (Rect.block (s := S1x1001472) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S1001472x64.size a
  hwx0_1 : ∀ i : grid0.Coords, EltTy.bits .bf16 = 32 ∨ (Rect.block (s := S1001472x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf

abbrev win0_0 : Pipeline.Window sig grid0 :=
  Pipeline.Window.ofSpec (Memref.whole main_v12) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S2000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1000000x64, .f32⟩
  | .hbm, ⟨12, _⟩ => ⟨S_, .f32⟩
  | .hbm, ⟨13, _⟩ => ⟨S100000x64, .f32⟩
  | .hbm, ⟨14, _⟩ => ⟨S1000000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .i1⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .i1⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Fin

/-!
# Mean of incoming messages: the specification, and the sums both programs meet at

A graph of 100000 nodes and 1000000 edges; edge e carries the feature row of its source node to its
destination node. Node n's result is the mean of the rows it receives, and zero when it receives none.

* The source of edge e is its source word read as jnp reads an index: a negative word has the node count added,
  and the signed result is clamped into the table. The destination word is read signed and NOT clamped: an edge
  whose destination word is negative or past the last node reaches no node.
* `nsum` is the sum of the rows that reach a node, `deg` their number, `G` the mean.

The second half is the arithmetic of a sum taken block by block with one-hot weights: a weight that is one on
the matching entries and zero elsewhere turns the full sum into the sum over the matching entries
(0 · x = 0 and 1 · x = x hold for every extended real, infinite ones included), and a sum over an initial
segment of the naturals grows by one block at a time.
-/

noncomputable section

open scoped BigOperators

namespace Cert.Agg

open Idealize.ShloMosaic Idealize.ShloMosaic.ValueIdx

/-- The source word of an edge as jnp reads an index: a negative word has the node count added. -/
def wrap (s : BitVec 32) : BitVec 32 := Scalar.select (Scalar.cmpi .slt s 0#32) (s + 100000#32) s

/-- The table row a source word names: the wrapped word read signed, clamped into the table. -/
def row (s : BitVec 32) : Fin 100000 := ⟨min (wrap s).toInt.toNat 99999, by omega⟩

/-- The message of edge e: the feature row of its source node. -/
def msg (feat : (⟨2, ![100000, 64]⟩ : Shape).Idx → EReal) (src : (⟨1, ![1000000]⟩ : Shape).Idx → BitVec 32)
    (e : Fin 1000000) (k : Fin 64) : EReal :=
  feat (ix2 (row (src (ix1 e))) k)

/-- The sum of the messages that reach node n. -/
def nsum (feat : (⟨2, ![100000, 64]⟩ : Shape).Idx → EReal) (src dst : (⟨1, ![1000000]⟩ : Shape).Idx → BitVec 32)
    (n : Fin 100000) (k : Fin 64) : EReal :=
  ∑ e ∈ Finset.univ.filter (fun e : Fin 1000000 => (dst (ix1 e)).toInt = (n.val : ℤ)), msg feat src e k

/-- The number of edges that reach node n. -/
def deg (dst : (⟨1, ![1000000]⟩ : Shape).Idx → BitVec 32) (n : Fin 100000) : EReal :=
  ∑ _e ∈ Finset.univ.filter (fun e : Fin 1000000 => (dst (ix1 e)).toInt = (n.val : ℤ)), (1 : EReal)

/-- The mean from a sum and a count: the sum over max(count, 1) where the count is positive, else zero. -/
def meanAt (s d : EReal) : EReal :=
  Scalar.select (FloatOps.cmpf (F := Ideal) (φ := .f32) .ogt d (Ideal.ofBits .f32 0x00000000#32))
    (Ideal.div s (max d (Ideal.ofBits .f32 0x3F800000#32))) (Ideal.ofBits .f32 0x00000000#32)

/-- THE RESULT: at (n, k) the mean of the k-th entries of the messages that reach node n. -/
def G (feat : (⟨2, ![100000, 64]⟩ : Shape).Idx → EReal) (src dst : (⟨1, ![1000000]⟩ : Shape).Idx → BitVec 32) :
    (⟨2, ![100000, 64]⟩ : Shape).Idx → EReal :=
  fun i => meanAt (nsum feat src dst (i 0) (i 1)) (deg dst (i 0))

/-- The float word of 1.0 denotes the real one. -/
theorem ofBits_one_f32 : Ideal.ofBits .f32 0x3F800000#32 = (1 : EReal) := by
  simp [Ideal.ofBits, Ideal.ieee]
  rw [← EReal.coe_mul]
  norm_num

/-! ## One-hot weights -/

/-- A one-hot weighted sum is the sum over the matching entries. -/
theorem sum_onehot_mul {ι : Type} [Fintype ι] (p : ι → Prop) [DecidablePred p] (g : ι → EReal) :
    ∑ k, (if p k then (1 : EReal) else 0) * g k = ∑ k ∈ Finset.univ.filter p, g k := by
  rw [Finset.sum_filter]
  refine Finset.sum_congr rfl fun k _ => ?_
  by_cases h : p k
  · rw [if_pos h, if_pos h, one_mul]
  · rw [if_neg h, if_neg h, zero_mul]

/-- A sum of one-hot weights counts the matching entries. -/
theorem sum_onehot {ι : Type} [Fintype ι] (p : ι → Prop) [DecidablePred p] :
    ∑ k, (if p k then (1 : EReal) else 0) = ∑ _k ∈ Finset.univ.filter p, (1 : EReal) := by
  rw [Finset.sum_filter]

/-! ## Sums over initial segments, block by block -/

/-- One more block of B entries. -/
theorem sum_range_block (f : ℕ → EReal) (B j : ℕ) :
    ∑ e ∈ Finset.range ((j + 1) * B), f e = ∑ e ∈ Finset.range (j * B), f e + ∑ k : Fin B, f (j * B + k.val) := by
  rw [Nat.add_mul, Nat.one_mul, Finset.sum_range_add, Fin.sum_univ_eq_sum_range (fun k => f (j * B + k)) B]

/-- The first block. -/
theorem sum_range_block_zero (f : ℕ → EReal) (B : ℕ) :
    ∑ e ∈ Finset.range ((0 + 1) * B), f e = ∑ k : Fin B, f (0 * B + k.val) := by
  rw [sum_range_block, Nat.zero_mul, Finset.range_zero, Finset.sum_empty, zero_add]

/-- A sum over an initial segment of a function that vanishes past E is the sum over the first E entries. -/
theorem sum_range_of_tail_zero (f : ℕ → EReal) (E P : ℕ) (hz : ∀ e, E ≤ e → f e = 0) :
    ∑ e ∈ Finset.range (E + P), f e = ∑ e : Fin E, f e.val := by
  rw [Finset.sum_range_add, Fin.sum_univ_eq_sum_range f E]
  rw [Finset.sum_eq_zero (fun k _ => hz (E + k) (Nat.le_add_right _ _)), add_zero]

end Cert.Agg

end
-- ==== Proof.IdxFacts.lean ====
import proofs.«423663_j88734024335500_1_alg».proof.Proof.Gen.KernelIdeal.Launch

/-!
# The grid and the windows' index maps in closed form

Grid point t of the 50 × 489 grid is (t / 489, t mod 489): node block i = t / 489, edge block j = t mod 489. The two
input windows move with j, the two output windows with i.
-/

noncomputable section

namespace Cert.KernelIdeal.Agg

open Cert.KernelIdeal Cert.KernelIdeal.Gen
open Idealize.ShloMosaic

theorem t_lt (t : Fin grid0.N) : t.val < 24450 := lt_of_lt_of_eq t.isLt N_0

/-- The node-block coordinate. -/
theorem coord0 (t : Fin grid0.N) : (grid0.coords t 0).val = t.val / 489 := by
  have := t_lt t
  show t.val / grid0.stride 0 % grid0.bound 0 = _
  rw [show grid0.stride 0 = 489 from by decide]
  show t.val / 489 % 50 = _
  omega

/-- The edge-block coordinate. -/
theorem coord1 (t : Fin grid0.N) : (grid0.coords t 1).val = t.val % 489 := by
  show t.val / grid0.stride 1 % grid0.bound 1 = _
  rw [show grid0.stride 1 = 1 from by decide]
  show t.val / 1 % 489 = _
  omega

/-- A small natural survives the round trip through a 32-bit word. -/
theorem toNat_ofNat_small (x : ℕ) (h : x < 4294967296) : (BitVec.ofNat 32 x).toNat = x := by
  rw [BitVec.toNat_ofNat]
  exact Nat.mod_eq_of_lt h

/-- The destination-word window is block (0, j). -/
theorem idx_w0 (t : Fin grid0.N) : win0_0.index t 0 = 0 ∧ win0_0.index t 1 = t.val % 489 := by
  have := t_lt t
  refine ⟨rfl, ?_⟩
  show (BitVec.ofNat 32 (grid0.coords t 1).val).toNat = _
  rw [coord1, toNat_ofNat_small _ (by omega)]

/-- The message window is block (j, 0). -/
theorem idx_w1 (t : Fin grid0.N) : win0_1.index t 0 = t.val % 489 ∧ win0_1.index t 1 = 0 := by
  have := t_lt t
  refine ⟨?_, rfl⟩
  show (BitVec.ofNat 32 (grid0.coords t 1).val).toNat = _
  rw [coord1, toNat_ofNat_small _ (by omega)]

/-- The sum window is block (i, 0). -/
theorem idx_w2 (t : Fin grid0.N) : win0_2.index t 0 = t.val / 489 ∧ win0_2.index t 1 = 0 := by
  have := t_lt t
  refine ⟨?_, rfl⟩
  show (BitVec.ofNat 32 (grid0.coords t 0).val).toNat = _
  rw [coord0, toNat_ofNat_small _ (by omega)]

/-- The count window is block (i, 0). -/
theorem idx_w3 (t : Fin grid0.N) : win0_3.index t 0 = t.val / 489 ∧ win0_3.index t 1 = 0 := by
  have := t_lt t
  refine ⟨?_, rfl⟩
  show (BitVec.ofNat 32 (grid0.coords t 0).val).toNat = _
  rw [coord0, toNat_ofNat_small _ (by omega)]

end Cert.KernelIdeal.Agg

end
-- ==== Proof.Payload.lean ====
import proofs.«423663_j88734024335500_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel body's arithmetic, read at an index

At grid point (i, j) the body holds the j-th block of 2048 destination words and the matching 2048 message rows, and
adds into node block i (2000 nodes):

* the WEIGHT matrix [2000, 2048]: entry (p, k) is one when the k-th destination word is the word of node 2000·i + p,
  and zero elsewhere (an integer compare, widened and converted; the change of float format is the identity);
* into the sums [2000, 64]: the product of the weights with the message rows — at (p, q) the sum over the 2048 edges
  of weight × entry q of the edge's message;
* into the counts [2000, 1]: the sum of each weight row.
-/

noncomputable section

namespace Cert.KernelIdeal.Agg

open Cert.KernelIdeal Cert.KernelIdeal.Gen
open Idealize.ShloMosaic Idealize.ShloMosaic.ValueIdx

/-- The word of node p of node block i0. -/
def nodeWord (i : grid0.Coords) (p : Fin 2000) : BitVec 32 :=
  Scalar.muli (BitVec.ofNat 32 (i 0).val) 2000#32 + BitVec.ofNat 32 p.val

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The compare bit widened and converted: one where the words are equal, zero elsewhere. -/
theorem onehot_word (x y : BitVec 32) :
    FloatOps.sitofp (F := Ideal) .f32 (BitVec.setWidth 32 (IntOp.cmpi .eq x y)) = if x = y then (1 : EReal) else 0 := by
  by_cases h : x = y
  · subst h
    rw [if_pos rfl]
    have e : BitVec.setWidth 32 (IntOp.cmpi .eq x x) = 1#32 := by simp [IntOp.cmpi]
    rw [e]
    show (((1#32 : BitVec 32).toInt : ℝ) : EReal) = 1
    rw [show (1#32 : BitVec 32).toInt = 1 from by decide]
    simp
  · rw [if_neg h]
    have hb : (x == y) = false := by simpa using h
    have e : BitVec.setWidth 32 (IntOp.cmpi .eq x y) = 0#32 := by simp [IntOp.cmpi, hb]
    rw [e]
    show (((0#32 : BitVec 32).toInt : ℝ) : EReal) = 0
    rw [show (0#32 : BitVec 32).toInt = 0 from by decide]
    simp

/-- THE WEIGHT at (p, k): one when the k-th destination word of the edge block is node p's word, else zero. -/
theorem weight_apply (i : grid0.Coords) (v7 : Vec Ideal S1x2048 .i32) (p : Fin 2000) (k : Fin 2048) :
    k0_pay3 (F := Ideal) i v7 (ix2 p k) = if v7 (ix2 (0 : Fin 1) k) = nodeWord i p then (1 : EReal) else 0 := by
  unfold k0_pay3
  dsimp only
  rw [sitofp_apply, extui_apply]
  show FloatOps.sitofp FTy.f32 (BitVec.setWidth 32 (IntOp.cmpi .eq
      (broadcastTo S2000x2048 (shapeCast S1x2048 v7 shapeCasts_S1x2048_S1x2048) broadcasts_S1x2048_S2000x2048 (ix2 p k))
      (broadcastTo S2000x2048 (addi (broadcast S2000x1 (Scalar.muli (BitVec.ofNat 32 (i 0).val) 2000#32))
              (iota Kind.tc S2000x1 32 [0] iota_S2000x1_d0_w32)) broadcasts_S2000x1_S2000x2048 (ix2 p k)))) = _
  rw [broadcastTo_1b_ab_apply, broadcastTo_a1_ab_apply, shapeCast_self, onehot_word]
  have e : addi (broadcast S2000x1 (Scalar.muli (BitVec.ofNat 32 (i 0).val) 2000#32))
      (iota Kind.tc S2000x1 32 [0] iota_S2000x1_d0_w32) (ix2 p (0 : Fin 1)) = nodeWord i p := by
    show IntOp.addi _ (iota Kind.tc S2000x1 32 [0] iota_S2000x1_d0_w32 (ix2 p (0 : Fin 1))) = _
    rw [iota_single_apply]
    rfl
  rw [e]

/-- A vector of a entries viewed as a column [a, 1] reads, at (p, 0), entry p. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- The lane sum of a [2000, 2048] block at row p: the sum of the row's entries. -/
theorem rowsum_apply (X : FVec Ideal S2000x2048 .f32) (h : S2000x2048.Reduces [1] S2000) (hφ : FKind.Formats .f32)
    (hacc : (0x00000000#32 : BitVec 32) = 0x00000000#32) (p : Fin 2000) :
    multiReduction .add [1] S2000 X 0x00000000#32 h hφ hacc (ix1 p) = ∑ k : Fin 2048, X (ix2 p k) := by
  refine (Ideal.multiReduction_add_single X 0x00000000#32 h hφ hacc (ix1 p)).trans ?_
  show ∑ k : Fin 2048, X (h.lift (ix1 p) k) = _
  refine Finset.sum_congr rfl fun k _ => congrArg X ?_
  funext c
  match c with
  | ⟨0, _⟩ => rfl
  | ⟨1, _⟩ => rfl

/-- THE COUNT at row p: what the block held there plus the number of matching destination words of the edge block. -/
theorem pay5_apply (i : grid0.Coords) (v7 : Vec Ideal S1x2048 .i32) (v22 : Vec Ideal S2000x1 .f32) (p : Fin 2000) :
    k0_pay5 (F := Ideal) i v7 v22 (ix2 p (0 : Fin 1))
      = v22 (ix2 p (0 : Fin 1)) + ∑ k : Fin 2048, (if v7 (ix2 (0 : Fin 1) k) = nodeWord i p then (1 : EReal) else 0) := by
  unfold k0_pay5
  dsimp only
  rw [addf_apply, shapeCast_self]
  refine congrArg (v22 (ix2 p (0 : Fin 1)) + ·) ?_
  refine (shapeCast_a_a1_apply _ _ p).trans ?_
  refine (rowsum_apply _ _ _ _ p).trans ?_
  exact Finset.sum_congr rfl fun k _ => weight_apply i v7 p k

/-! ## The one-hot matrix product -/

/-- On the row axis the left operand of the product is read at the result's row. -/
theorem lhs_row (j : S2000x64.Idx) (k : dot_S2000x2048_S2048x64_S2000x64_1_0_0_1_n_n.contr.Idx) :
    (dot_S2000x2048_S2048x64_S2000x64_1_0_0_1_n_n.lhsIdx j k 0).val = (j 0).val := by
  unfold DotDims.lhsIdx
  rw [dif_neg (show ¬(0 : Fin S2000x2048.rank) ∈ dot_S2000x2048_S2048x64_S2000x64_1_0_0_1_n_n.lhsBatch by decide),
    dif_pos (show (0 : Fin S2000x2048.rank) ∈ dot_S2000x2048_S2048x64_S2000x64_1_0_0_1_n_n.lhsNonContracting by decide)]
  rfl

/-- On the contracted axis the left operand is read at the contraction position. -/
theorem lhs_col (j : S2000x64.Idx) (k : dot_S2000x2048_S2048x64_S2000x64_1_0_0_1_n_n.contr.Idx) :
    (dot_S2000x2048_S2048x64_S2000x64_1_0_0_1_n_n.lhsIdx j k 1).val = (k ⟨0, by decide⟩).val :=
  dot_S2000x2048_S2048x64_S2000x64_1_0_0_1_n_n.lhsIdx_val_of_single (cl := 1) rfl j k

/-- On the contracted axis the right operand is read at the contraction position. -/
theorem rhs_row (j : S2000x64.Idx) (k : dot_S2000x2048_S2048x64_S2000x64_1_0_0_1_n_n.contr.Idx) :
    (dot_S2000x2048_S2048x64_S2000x64_1_0_0_1_n_n.rhsIdx j k 0).val = (k ⟨0, by decide⟩).val :=
  dot_S2000x2048_S2048x64_S2000x64_1_0_0_1_n_n.rhsIdx_val_of_single (cr := 0) rfl j k

/-- On the column axis the right operand is read at the result's column. -/
theorem rhs_col (j : S2000x64.Idx) (k : dot_S2000x2048_S2048x64_S2000x64_1_0_0_1_n_n.contr.Idx) :
    (dot_S2000x2048_S2048x64_S2000x64_1_0_0_1_n_n.rhsIdx j k 1).val = (j 1).val := by
  unfold DotDims.rhsIdx
  rw [dif_neg (show ¬(1 : Fin S2048x64.rank) ∈ dot_S2000x2048_S2048x64_S2000x64_1_0_0_1_n_n.rhsBatch by decide),
    dif_pos (show (1 : Fin S2048x64.rank) ∈ dot_S2000x2048_S2048x64_S2000x64_1_0_0_1_n_n.rhsNonContracting by decide)]
  rfl

/-- The product into a zero accumulator at (p, q): the sum over the 2048 edges of the block of weight × message entry. -/
theorem matmul_block_apply (W : FVec Ideal S2000x2048 .bf16) (X : FVec Ideal S2048x64 .bf16) (p : Fin 2000) (q : Fin 64) :
    matmul dot_S2000x2048_S2048x64_S2000x64_1_0_0_1_n_n none W X (constant (F := Ideal) S2000x64 .f32 0x00000000#32) (ix2 p q)
      = ∑ k : Fin 2048, W (ix2 p k) * X (ix2 k q) := by
  refine (Ideal.matmul_constant_zero_apply dot_S2000x2048_S2048x64_S2000x64_1_0_0_1_n_n none W X (ix2 p q)).trans ?_
  refine (Equiv.sum_comp (contrEquiv1 dot_S2000x2048_S2048x64_S2000x64_1_0_0_1_n_n 2048 rfl rfl).symm _).symm.trans ?_
  refine Finset.sum_congr rfl fun k _ => ?_
  have hk := contrEquiv1_symm_val dot_S2000x2048_S2048x64_S2000x64_1_0_0_1_n_n 2048 rfl rfl k
  congr 2
  · funext a
    apply Fin.ext
    match a with
    | ⟨0, _⟩ => exact lhs_row _ _
    | ⟨1, _⟩ => exact (lhs_col _ _).trans hk
  · funext a
    apply Fin.ext
    match a with
    | ⟨0, _⟩ => exact (rhs_row _ _).trans hk
    | ⟨1, _⟩ => exact rhs_col _ _

/-- THE SUM at (p, q): what the block held there plus, over the edges of the edge block whose destination word is node
    p's, their message entry q (as a one-hot weighted sum). -/
theorem pay4_apply (i : grid0.Coords) (v7 : Vec Ideal S1x2048 .i32) (v15 : Vec Ideal S2000x64 .f32)
    (v17 : Vec Ideal S2048x64 .bf16) (p : Fin 2000) (q : Fin 64) :
    k0_pay4 (F := Ideal) i v7 v15 v17 (ix2 p q)
      = v15 (ix2 p q) + ∑ k : Fin 2048, (if v7 (ix2 (0 : Fin 1) k) = nodeWord i p then (1 : EReal) else 0) * v17 (ix2 k q) := by
  unfold k0_pay4
  rw [addf_apply, shapeCast_self, shapeCast_self]
  refine congrArg (v15 (ix2 p q) + ·) ?_
  refine (matmul_block_apply _ _ p q).trans ?_
  refine Finset.sum_congr rfl fun k _ => ?_
  rw [truncf_apply, weight_apply]

end Cert.KernelIdeal.Agg

end
-- ==== Proof.Pieces.lean ====
import proofs.«423663_j88734024335500_1_alg».proof.Proof.Gen.KernelIdeal.Frame
import Idealize.ShloMosaic.Lib.Pipeline.Value
import Idealize.ShloMosaic.Lib.Tactic

/-!
# What one grid point leaves in the two output blocks

The body has two control cases. At the first edge block of a node block (case A) it stores zeros into the sum block
and the count block, reads them back, and stores the updated blocks; at every later edge block (case B) it reads what
the point before left and stores the updated blocks. Either way the last store covers the whole block, so what the
block holds afterwards is that store's value: the update of the zeros, or of the previous contents, by the point's
destination words and messages.
-/

noncomputable section

namespace Cert.KernelIdeal.Agg

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later edge block, the sums: the previous sums updated. -/
theorem outB2 (c : Dev nD) (i : grid0.Coords) (a2 : Memref sig .tc .vmem S1x2048 .i32) (h2 : a2.IsWhole)
    (a3 : Memref sig .tc .vmem S2048x64 .bf16) (h3 : a3.IsWhole) (a4 : Memref sig .tc .vmem S2000x64 .f32) (h4 : a4.IsWhole)
    (a5 : Memref sig .tc .vmem S2000x1 .f32) (h5 : a5.IsWhole) (hc : ¬cond0_0 i)
    (x0 : Vec F S1x2048 .i32) (x1 : Vec F S2048x64 .bf16) (xo2 : Vec F S2000x64 .f32) (xo3 : Vec F S2000x1 .f32) :
    out0_B_2 c i a2 h2 a3 h3 a4 h4 a5 h5 hc x0 x1 xo2 xo3 = k0_pay4 i x0 xo2 x1 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h4.read_unread, View.ld_unit_zero (S := S1x2048) hz,
    View.ld_unit_zero (S := S2048x64) hz, View.ld_unit_zero (S := S2000x64) hz]

/-- A later edge block, the counts: the previous counts updated. -/
theorem outB3 (c : Dev nD) (i : grid0.Coords) (a2 : Memref sig .tc .vmem S1x2048 .i32) (h2 : a2.IsWhole)
    (a3 : Memref sig .tc .vmem S2048x64 .bf16) (h3 : a3.IsWhole) (a4 : Memref sig .tc .vmem S2000x64 .f32) (h4 : a4.IsWhole)
    (a5 : Memref sig .tc .vmem S2000x1 .f32) (h5 : a5.IsWhole) (hc : ¬cond0_0 i)
    (x0 : Vec F S1x2048 .i32) (x1 : Vec F S2048x64 .bf16) (xo2 : Vec F S2000x64 .f32) (xo3 : Vec F S2000x1 .f32) :
    out0_B_3 c i a2 h2 a3 h3 a4 h4 a5 h5 hc x0 x1 xo2 xo3 = k0_pay5 i x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h5.read_unread, View.ld_unit_zero (S := S1x2048) hz,
    View.ld_unit_zero (S := S2000x1) hz]

/-- The first edge block, the sums: the zero block updated. -/
theorem outA2 (c : Dev nD) (i : grid0.Coords) (a2 : Memref sig .tc .vmem S1x2048 .i32) (h2 : a2.IsWhole)
    (a3 : Memref sig .tc .vmem S2048x64 .bf16) (h3 : a3.IsWhole) (a4 : Memref sig .tc .vmem S2000x64 .f32) (h4 : a4.IsWhole)
    (a5 : Memref sig .tc .vmem S2000x1 .f32) (h5 : a5.IsWhole) (hc : cond0_0 i)
    (x0 : Vec F S1x2048 .i32) (x1 : Vec F S2048x64 .bf16) :
    out0_A_2 c i a2 h2 a3 h3 a4 h4 a5 h5 hc x0 x1 = k0_pay4 i x0 (k0_pay1 (F := F)) x1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S2000x64) hz, View.readCov_unit_zero (S := S2000x64) _ hz]
  simp only [View.readAt_eq_ld, h2.read_unread, h3.read_unread, View.ld_unit_zero (S := S1x2048) hz,
    View.ld_unit_zero (S := S2048x64) hz, View.ld_unit_zero (S := S2000x64) hz]

/-- The first edge block, the counts: the zero block updated. -/
theorem outA3 (c : Dev nD) (i : grid0.Coords) (a2 : Memref sig .tc .vmem S1x2048 .i32) (h2 : a2.IsWhole)
    (a3 : Memref sig .tc .vmem S2048x64 .bf16) (h3 : a3.IsWhole) (a4 : Memref sig .tc .vmem S2000x64 .f32) (h4 : a4.IsWhole)
    (a5 : Memref sig .tc .vmem S2000x1 .f32) (h5 : a5.IsWhole) (hc : cond0_0 i)
    (x0 : Vec F S1x2048 .i32) (x1 : Vec F S2048x64 .bf16) :
    out0_A_3 c i a2 h2 a3 h3 a4 h4 a5 h5 hc x0 x1 = k0_pay5 i x0 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S2000x1) hz, View.readCov_unit_zero (S := S2000x1) _ hz]
  simp only [View.readAt_eq_ld, h2.read_unread, View.ld_unit_zero (S := S1x2048) hz,
    View.ld_unit_zero (S := S2000x1) hz]

end Cert.KernelIdeal.Agg

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.Prefix.lean ====
import proofs.«423663_j88734024335500_1_alg».proof.Proof.Gen.KernelIdeal.Frame
import proofs.«423663_j88734024335500_1_alg».proof.Proof.Spec
import proofs.«423663_j88734024335500_1_alg».proof.Proof.LibSegment
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.StableHlo.Run

/-!
# What the region finds in its two input arrays

Before the region the host pads the edge list from 1000000 to 1001472 = 489 · 2048 entries: the destination words
with the word of −1 (all ones), viewed as one row; the messages — the feature rows gathered at the wrapped source words,
the change of float format being the identity — with zero rows. Read at an index: entry e of either array is edge e's
below 1000000, and the padding from there on.
-/

noncomputable section

namespace Cert.KernelIdeal.Agg

open Cert.KernelIdeal Cert.KernelIdeal.Gen
open Idealize.ShloMosaic Idealize.ShloMosaic.TcCoe Idealize.SL.Sem Idealize.ShloMosaic.ValueIdx
open Idealize.ShloMosaic.StableHlo.Predicate (ixP)

variable (m : (ℓ : Loc nD τ sig) → Buf (Elt Ideal) ℓ)

/-- The three argument arrays. -/
abbrev featA (c : Dev nD) : Vec Ideal S100000x64 .f32 := m ((c : Thread nD τ).loc main_arg0)
abbrev srcA (c : Dev nD) : Vec Ideal S1000000 .i32 := m ((c : Thread nD τ).loc main_arg1)
abbrev dstA (c : Dev nD) : Vec Ideal S1000000 .i32 := m ((c : Thread nD τ).loc main_arg2)

/-- The padded destination words and the padded messages, as the region finds them. -/
abbrev dstPad (c : Dev nD) : Vec Ideal S1x1001472 .i32 := V m c main_v12
abbrev msgPad (c : Dev nD) : Vec Ideal S1001472x64 .bf16 := V m c main_v9

/-- The padded destination words as the host's term of the destination argument. -/
theorem dstPad_eq (c : Dev nD) :
    dstPad m c = shapeCast S1x1001472 (concatenate S1001472 0 [⟨S1000000, dstA m c⟩,
        ⟨S1472, broadcastInDim S1472 ![] bcast_S_S1472 (constantI S_ 32 4294967295#32)⟩]
      concatenates_S1000000_S1472_S1001472_d0) shapeCasts_S1001472_S1x1001472 := by
  show StableHlo.after hostOps0 (fun b => m (c, b)) (Proc.devRef .tc main_v12) = _
  after_results
  rfl

/-- Below 1000000 the padded destination words are the destination words … -/
theorem dstPad_apply_lt (c : Dev nD) (e : Fin 1001472) (h : e.val < 1000000) :
    dstPad m c (ix2 (0 : Fin 1) e) = dstA m c (ix1 ⟨e.val, h⟩) := by
  rw [dstPad_eq, shapeCast_a_1a_apply]
  exact concatenate_pair_apply_left (t := S1001472) (s₁ := S1000000) (s₂ := S1472) (0 : Fin 1) (dstA m c)
    (broadcastInDim S1472 ![] bcast_S_S1472 (constantI S_ 32 4294967295#32)) concatenates_S1000000_S1472_S1001472_d0
    (ix1 e) rfl (ix1 (⟨e.val, h⟩ : Fin 1000000)) (fun b => match b with | ⟨0, _⟩ => rfl)

/-- … and from there on the word of −1. -/
theorem dstPad_apply_ge (c : Dev nD) (e : Fin 1001472) (h : 1000000 ≤ e.val) :
    dstPad m c (ix2 (0 : Fin 1) e) = 4294967295#32 := by
  rw [dstPad_eq, shapeCast_a_1a_apply]
  refine (concatenate_pair_apply_right (t := S1001472) (s₁ := S1000000) (s₂ := S1472) (0 : Fin 1) (dstA m c)
    (broadcastInDim S1472 ![] bcast_S_S1472 (constantI S_ 32 4294967295#32)) concatenates_S1000000_S1472_S1001472_d0
    (ix1 e) rfl rfl (ix1 (⟨e.val - 1000000, by have := e.isLt; omega⟩ : Fin 1472))
    (fun b hb => absurd (Subsingleton.elim _ _) hb) ?_).trans rfl
  show e.val - 1000000 + 1000000 = e.val
  omega

/-- The padded messages as the host's term of the feature and source arguments. -/
theorem msgPad_eq (c : Dev nD) :
    msgPad m c = concatenate S1001472x64 0 [⟨S1000000x64, Host.gather gather_S100000x64_S1000000x1_S1000000x64_1_0_n_n_0_1_164
          (truncf .bf16 (featA m c) bitsLt_bf16_f32)
          (broadcastInDim S1000000x1 ![0] bcast_S1000000_S1000000x1_0
            (select (cmpi .slt (srcA m c) (broadcastInDim S1000000 ![] bcast_S_S1000000 (constantI S_ 32 0#32)))
              (addi (srcA m c) (broadcastInDim S1000000 ![] bcast_S_S1000000 (constantI S_ 32 100000#32))) (srcA m c)))⟩,
        ⟨S1472x64, broadcastInDim S1472x64 ![] bcast_S_S1472x64 (constant (F := Ideal) S_ .bf16 0x0000#16)⟩]
      concatenates_S1000000x64_S1472x64_S1001472x64_d0 := by
  show StableHlo.after hostOps0 (fun b => m (c, b)) (Proc.devRef .tc main_v9) = _
  after_results

/-- Below 1000000 row e of the padded messages is the message of edge e. -/
theorem msgPad_apply_lt (c : Dev nD) (e : Fin 1001472) (h : e.val < 1000000) (q : Fin 64) :
    msgPad m c (ix2 e q) = Cert.Agg.msg (featA m c) (srcA m c) ⟨e.val, h⟩ q := by
  rw [msgPad_eq]
  refine (concatenate_pair_apply_left (t := S1001472x64) (s₁ := S1000000x64) (s₂ := S1472x64) (0 : Fin 2) _
    (broadcastInDim S1472x64 ![] bcast_S_S1472x64 (constant (F := Ideal) S_ .bf16 0x0000#16))
    concatenates_S1000000x64_S1472x64_S1001472x64_d0 (ix2 e q) rfl
    (ix2 (⟨e.val, h⟩ : Fin 1000000) q) (fun b => match b with | ⟨0, _⟩ => rfl | ⟨1, _⟩ => rfl)).trans ?_
  rw [Cert.Segment.gather_rows gather_S100000x64_S1000000x1_S1000000x64_1_0_n_n_0_1_164 rfl rfl rfl rfl rfl _ _
    (⟨e.val, h⟩ : Fin 1000000) q (by decide)]
  rw [truncf_apply]
  unfold Cert.Agg.msg Cert.Agg.row
  refine congrArg (featA m c) (congrArg (fun r => ix2 r q) (Fin.ext ?_))
  show min (broadcastInDim S1000000x1 ![0] bcast_S1000000_S1000000x1_0
      (select (cmpi .slt (srcA m c) (broadcastInDim S1000000 ![] bcast_S_S1000000 (constantI S_ 32 0#32)))
        (addi (srcA m c) (broadcastInDim S1000000 ![] bcast_S_S1000000 (constantI S_ 32 100000#32))) (srcA m c))
      (ixP (⟨e.val, h⟩ : Fin 1000000))).toInt.toNat (100000 - 1)
    = min (Cert.Agg.wrap (srcA m c (ix1 (⟨e.val, h⟩ : Fin 1000000)))).toInt.toNat 99999
  rw [Idealize.ShloMosaic.StableHlo.Predicate.bcast_col1]
  have hix : (Shape.Idx.ofFin (⟨e.val, h⟩ : Fin 1000000) : S1000000.Idx) = ix1 (⟨e.val, h⟩ : Fin 1000000) :=
    funext fun a => match a with | ⟨0, _⟩ => rfl
  rw [hix]
  rfl

end Cert.KernelIdeal.Agg

end
-- ==== Proof.Accum.lean ====
import proofs.«423663_j88734024335500_1_alg».proof.Proof.Gen.KernelIdeal.Frame
import proofs.«423663_j88734024335500_1_alg».proof.Proof.Spec
import proofs.«423663_j88734024335500_1_alg».proof.Proof.IdxFacts
import proofs.«423663_j88734024335500_1_alg».proof.Proof.Payload
import proofs.«423663_j88734024335500_1_alg».proof.Proof.Pieces
import proofs.«423663_j88734024335500_1_alg».proof.Proof.Prefix
import Idealize.ShloMosaic.Lib.Pipeline.Value
import Idealize.ShloMosaic.Lib.ValueIdx

/-!
# The running sums over the edge blocks

Fix a node block i. After edge block j the sum block holds, at (p, q), the one-hot weighted sum over the first
(j + 1) · 2048 padded edges of entry q of their messages, the weight of an edge being one when its destination word
is the word of node 2000 · i + p; the count block holds the sum of the weights. Edge block j contributes the edges
j · 2048 … j · 2048 + 2047: the blocks the two input windows read at the point are those rows of the padded arrays.
-/

noncomputable section

open scoped BigOperators

namespace Cert.KernelIdeal.Agg

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The destination word of padded edge e (past the padded list: the word of −1, which names no node). -/
def dW (c : Dev nD) (e : ℕ) : BitVec 32 :=
  if h : e < 1001472 then dstPad m c (ix2 (0 : Fin 1) ⟨e, h⟩) else 4294967295#32

/-- Entry q of the message of padded edge e (past the padded list: zero). -/
def mE (c : Dev nD) (e : ℕ) (q : Fin 64) : EReal :=
  if h : e < 1001472 then msgPad m c (ix2 ⟨e, h⟩ q) else 0

/-- The word of node n. -/
def nodeW (n : ℕ) : BitVec 32 := BitVec.ofNat 32 n

/-- Edge e's contribution to the sum of node n at entry q, and to its count. -/
def sTerm (c : Dev nD) (n : ℕ) (q : Fin 64) (e : ℕ) : EReal :=
  (if dW m c e = nodeW n then (1 : EReal) else 0) * mE m c e q
def cTerm (c : Dev nD) (n : ℕ) (e : ℕ) : EReal :=
  if dW m c e = nodeW n then (1 : EReal) else 0

/-- The two input blocks at point t. -/
abbrev dblk (c : Dev nD) (t : Fin cfg0.N) : Vec Ideal S1x2048 .i32 := iblk m c 0 t
abbrev mblk (c : Dev nD) (t : Fin cfg0.N) : Vec Ideal S2048x64 .bf16 := iblk m c 1 t

/-- The destination-word block at point t is the words of edges j · 2048 … of the padded list. -/
theorem dblk_apply (c : Dev nD) (t : Fin cfg0.N) (k : Fin 2048) :
    dblk m c t (ix2 (0 : Fin 1) k) = dW m c (t.val % 489 * 2048 + k.val) := by
  have ht := t_lt t
  have hk := k.isLt
  have hlt : t.val % 489 * 2048 + k.val < 1001472 := by omega
  obtain ⟨e0, e1⟩ := idx_w0 t
  unfold dW
  rw [dif_pos hlt]
  unfold dblk iblk
  rw [View.read_apply]
  show V m c main_v12 _ = V m c main_v12 _
  congr 1
  funext a
  apply Fin.ext
  match a with
  | ⟨0, _⟩ => show win0_0.index t 0 * 1 + 1 * 0 = 0; rw [e0]
  | ⟨1, _⟩ => show win0_0.index t 1 * 2048 + 1 * k.val = t.val % 489 * 2048 + k.val; rw [e1]; omega

/-- The message block at point t is the rows of edges j · 2048 … of the padded list. -/
theorem mblk_apply (c : Dev nD) (t : Fin cfg0.N) (k : Fin 2048) (q : Fin 64) :
    mblk m c t (ix2 k q) = mE m c (t.val % 489 * 2048 + k.val) q := by
  have ht := t_lt t
  have hk := k.isLt
  have hlt : t.val % 489 * 2048 + k.val < 1001472 := by omega
  obtain ⟨e0, e1⟩ := idx_w1 t
  unfold mE
  rw [dif_pos hlt]
  unfold mblk iblk
  rw [View.read_apply]
  show V m c main_v9 _ = V m c main_v9 _
  congr 1
  funext a
  apply Fin.ext
  match a with
  | ⟨0, _⟩ => show win0_1.index t 0 * 2048 + 1 * k.val = t.val % 489 * 2048 + k.val; rw [e0]; omega
  | ⟨1, _⟩ => show win0_1.index t 1 * 64 + 1 * q.val = q.val; rw [e1]; omega

/-- The node word the body compares with at point t, row p: the word of node 2000 · i + p. -/
theorem nodeWord_eq (t : Fin cfg0.N) (p : Fin 2000) :
    nodeWord (grid0.coords t) p = nodeW (t.val / 489 * 2000 + p.val) := by
  have ht := t_lt t
  have hp := p.isLt
  unfold nodeWord nodeW
  rw [coord0]
  apply BitVec.eq_of_toNat_eq
  show (BitVec.ofNat 32 (t.val / 489) * 2000#32 + BitVec.ofNat 32 p.val).toNat = (BitVec.ofNat 32 (t.val / 489 * 2000 + p.val)).toNat
  simp only [BitVec.toNat_add, BitVec.toNat_mul, BitVec.toNat_ofNat, Nat.reducePow]
  omega

/-- The zero blocks the first edge block starts from. -/
theorem pay1_apply (j : S2000x64.Idx) : k0_pay1 (F := Ideal) j = 0 := Ideal.ofBits_zero_f32
theorem pay2_apply (j : S2000x1.Idx) : k0_pay2 (F := Ideal) j = 0 := Ideal.ofBits_zero_f32

/-! ## One point -/

/-- A later edge block adds its 2048 edges to the sums … -/
theorem stepB_sum (c : Dev nD) (t : Fin cfg0.N) (h0 : ¬t.val % 489 = 0) (p : Fin 2000) (q : Fin 64) :
    (outsAt0 m c t.val t.isLt).1 (ix2 p q)
      = (outsAt0 m c (t.val - 1) (Nat.lt_of_le_of_lt (Nat.sub_le _ _) t.isLt)).1 (ix2 p q)
        + ∑ k : Fin 2048, sTerm m c (t.val / 489 * 2000 + p.val) q (t.val % 489 * 2048 + k.val) := by
  rw [outsAt0_B m c t h0]
  dsimp only
  refine (congrFun (outB2 (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) (ix2 p q)).trans ?_
  refine (pay4_apply (grid0.coords t) (dblk m c t)
    (outsAt0 m c (t.val - 1) (Nat.lt_of_le_of_lt (Nat.sub_le _ _) t.isLt)).1 (mblk m c t) p q).trans ?_
  refine congrArg (_ + ·) (Finset.sum_congr rfl fun k _ => ?_)
  rw [dblk_apply, mblk_apply, nodeWord_eq]
  rfl

/-- … and to the counts. -/
theorem stepB_cnt (c : Dev nD) (t : Fin cfg0.N) (h0 : ¬t.val % 489 = 0) (p : Fin 2000) :
    (outsAt0 m c t.val t.isLt).2 (ix2 p (0 : Fin 1))
      = (outsAt0 m c (t.val - 1) (Nat.lt_of_le_of_lt (Nat.sub_le _ _) t.isLt)).2 (ix2 p (0 : Fin 1))
        + ∑ k : Fin 2048, cTerm m c (t.val / 489 * 2000 + p.val) (t.val % 489 * 2048 + k.val) := by
  rw [outsAt0_B m c t h0]
  dsimp only
  refine (congrFun (outB3 (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) (ix2 p (0 : Fin 1))).trans ?_
  refine (pay5_apply (grid0.coords t) (dblk m c t)
    (outsAt0 m c (t.val - 1) (Nat.lt_of_le_of_lt (Nat.sub_le _ _) t.isLt)).2 p).trans ?_
  refine congrArg (_ + ·) (Finset.sum_congr rfl fun k _ => ?_)
  rw [dblk_apply, nodeWord_eq]
  rfl

/-- The first edge block starts the sums from zero … -/
theorem stepA_sum (c : Dev nD) (t : Fin cfg0.N) (h0 : t.val % 489 = 0) (p : Fin 2000) (q : Fin 64) :
    (outsAt0 m c t.val t.isLt).1 (ix2 p q)
      = ∑ k : Fin 2048, sTerm m c (t.val / 489 * 2000 + p.val) q (t.val % 489 * 2048 + k.val) := by
  rw [outsAt0_A m c t h0]
  dsimp only
  refine (congrFun (outA2 (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) (ix2 p q)).trans ?_
  refine (pay4_apply (grid0.coords t) (dblk m c t) (k0_pay1 (F := Ideal)) (mblk m c t) p q).trans ?_
  rw [pay1_apply, zero_add]
  refine Finset.sum_congr rfl fun k _ => ?_
  rw [dblk_apply, mblk_apply, nodeWord_eq]
  rfl

/-- … and the counts. -/
theorem stepA_cnt (c : Dev nD) (t : Fin cfg0.N) (h0 : t.val % 489 = 0) (p : Fin 2000) :
    (outsAt0 m c t.val t.isLt).2 (ix2 p (0 : Fin 1))
      = ∑ k : Fin 2048, cTerm m c (t.val / 489 * 2000 + p.val) (t.val % 489 * 2048 + k.val) := by
  rw [outsAt0_A m c t h0]
  dsimp only
  refine (congrFun (outA3 (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) (ix2 p (0 : Fin 1))).trans ?_
  refine (pay5_apply (grid0.coords t) (dblk m c t) (k0_pay2 (F := Ideal)) p).trans ?_
  rw [pay2_apply, zero_add]
  refine Finset.sum_congr rfl fun k _ => ?_
  rw [dblk_apply, nodeWord_eq]
  rfl

/-! ## All points: the running sums -/

/-- After point n the sum block holds the weighted sum over the first (n mod 489 + 1) · 2048 padded edges. -/
theorem acc_sum (c : Dev nD) : ∀ (n : ℕ) (hn : n < cfg0.N) (p : Fin 2000) (q : Fin 64),
    (outsAt0 m c n hn).1 (ix2 p q)
      = ∑ e ∈ Finset.range ((n % 489 + 1) * 2048), sTerm m c (n / 489 * 2000 + p.val) q e := by
  intro n
  induction n with
  | zero =>
    intro hn p q
    exact (stepA_sum m c ⟨0, hn⟩ (Nat.zero_mod _) p q).trans (Cert.Agg.sum_range_block_zero _ 2048).symm
  | succ n ih =>
    intro hn p q
    by_cases h0 : (n + 1) % 489 = 0
    · refine (stepA_sum m c ⟨n + 1, hn⟩ h0 p q).trans ?_
      show ∑ k : Fin 2048, sTerm m c ((n + 1) / 489 * 2000 + p.val) q ((n + 1) % 489 * 2048 + k.val) = _
      rw [h0]
      exact (Cert.Agg.sum_range_block_zero _ 2048).symm
    · refine (stepB_sum m c ⟨n + 1, hn⟩ h0 p q).trans ?_
      show (outsAt0 m c n (Nat.lt_of_succ_lt hn)).1 (ix2 p q)
        + ∑ k : Fin 2048, sTerm m c ((n + 1) / 489 * 2000 + p.val) q ((n + 1) % 489 * 2048 + k.val) = _
      have e1 : (n + 1) / 489 = n / 489 := by omega
      have e2 : (n + 1) % 489 = n % 489 + 1 := by omega
      rw [ih (Nat.lt_of_succ_lt hn) p q, e1, e2]
      exact (Cert.Agg.sum_range_block _ 2048 (n % 489 + 1)).symm

/-- After point n the count block holds the sum of the weights of those edges. -/
theorem acc_cnt (c : Dev nD) : ∀ (n : ℕ) (hn : n < cfg0.N) (p : Fin 2000),
    (outsAt0 m c n hn).2 (ix2 p (0 : Fin 1))
      = ∑ e ∈ Finset.range ((n % 489 + 1) * 2048), cTerm m c (n / 489 * 2000 + p.val) e := by
  intro n
  induction n with
  | zero =>
    intro hn p
    exact (stepA_cnt m c ⟨0, hn⟩ (Nat.zero_mod _) p).trans (Cert.Agg.sum_range_block_zero _ 2048).symm
  | succ n ih =>
    intro hn p
    by_cases h0 : (n + 1) % 489 = 0
    · refine (stepA_cnt m c ⟨n + 1, hn⟩ h0 p).trans ?_
      show ∑ k : Fin 2048, cTerm m c ((n + 1) / 489 * 2000 + p.val) ((n + 1) % 489 * 2048 + k.val) = _
      rw [h0]
      exact (Cert.Agg.sum_range_block_zero _ 2048).symm
    · refine (stepB_cnt m c ⟨n + 1, hn⟩ h0 p).trans ?_
      show (outsAt0 m c n (Nat.lt_of_succ_lt hn)).2 (ix2 p (0 : Fin 1))
        + ∑ k : Fin 2048, cTerm m c ((n + 1) / 489 * 2000 + p.val) ((n + 1) % 489 * 2048 + k.val) = _
      have e1 : (n + 1) / 489 = n / 489 := by omega
      have e2 : (n + 1) % 489 = n % 489 + 1 := by omega
      rw [ih (Nat.lt_of_succ_lt hn) p, e1, e2]
      exact (Cert.Agg.sum_range_block _ 2048 (n % 489 + 1)).symm

end Cert.KernelIdeal.Agg

end
-- ==== Proof.Final.lean ====
import proofs.«423663_j88734024335500_1_alg».proof.Proof.Gen.KernelIdeal.Frame
import proofs.«423663_j88734024335500_1_alg».proof.Proof.Accum
import Idealize.ShloMosaic.Lib.Pipeline.Value
import Idealize.ShloMosaic.Lib.ValueIdx

/-!
# The two output arrays after the region

Node block i is written back once, after its last edge block (point 489 · i + 488), when it holds the sums over all
489 · 2048 padded edges. The 50 node blocks tile the arrays: row n lies in node block n / 2000. So the sum array holds
at (n, q) the one-hot weighted sum over all padded edges for node n, and the count array the sum of the weights.
-/

noncomputable section

open scoped BigOperators

namespace Cert.KernelIdeal.Agg

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The sum array and the count array after the region: at node n the one-hot weighted sum, and the sum of the
    weights, over all 489 · 2048 padded edges. -/
@[irreducible] def sumArr (c : Dev nD) : Vec Ideal S100000x64 .f32 :=
  fun j => ∑ e ∈ Finset.range (489 * 2048), sTerm m c (j 0).val (j 1) e
@[irreducible] def cntArr (c : Dev nD) : Vec Ideal S100000x1 .f32 :=
  fun j => ∑ e ∈ Finset.range (489 * 2048), cTerm m c (j 0).val e

/-- What a write-back point leaves in the sum block is the point's block of the sum array. -/
theorem blk2_point (c : Dev nD) (t : Fin cfg0.N) (h488 : t.val % 489 = 488) (y : S2000x64.Idx) :
    (outsAt0 m c t.val t.isLt).1 y = sumArr m c (((cfg0.win 2).blk t).view.emb y) := by
  have ht := t_lt t
  obtain ⟨e0, e1⟩ := idx_w2 t
  obtain ⟨p, q, rfl⟩ : ∃ (p : Fin 2000) (q : Fin 64), y = ix2 p q := ⟨y 0, y 1, eq_ix2 y⟩
  have hp := p.isLt
  have hq := q.isLt
  rw [acc_sum m c t.val t.isLt p q, h488]
  unfold sumArr
  have hr : ((((cfg0.win 2).blk t).view.emb (ix2 p q)) 0).val = t.val / 489 * 2000 + p.val := by
    show win0_2.index t 0 * 2000 + 1 * p.val = _
    rw [e0]; omega
  have hc : (((cfg0.win 2).blk t).view.emb (ix2 p q)) 1 = q := Fin.ext (by
    show win0_2.index t 1 * 64 + 1 * q.val = q.val
    rw [e1]; omega)
  rw [hr, hc]

/-- The same for the count block. -/
theorem blk3_point (c : Dev nD) (t : Fin cfg0.N) (h488 : t.val % 489 = 488) (y : S2000x1.Idx) :
    (outsAt0 m c t.val t.isLt).2 y = cntArr m c (((cfg0.win 3).blk t).view.emb y) := by
  have ht := t_lt t
  obtain ⟨e0, e1⟩ := idx_w3 t
  obtain ⟨p, z, rfl⟩ : ∃ (p : Fin 2000) (z : Fin 1), y = ix2 p z := ⟨y 0, y 1, eq_ix2 y⟩
  obtain rfl : z = 0 := Subsingleton.elim _ _
  have hp := p.isLt
  rw [acc_cnt m c t.val t.isLt p, h488]
  unfold cntArr
  have hr : ((((cfg0.win 3).blk t).view.emb (ix2 p (0 : Fin 1))) 0).val = t.val / 489 * 2000 + p.val := by
    show win0_3.index t 0 * 2000 + 1 * p.val = _
    rw [e0]; omega
  rw [hr]

/-- WHAT A WRITE-BACK POINT WRITES is its block of the sum array. -/
theorem flushed2_eq (c : Dev nD) (t : Fin cfg0.N) (hf : (cfg0.win 2).flush t = true) :
    (dats m 0 c).flushed 2 t = ((cfg0.win 2).blk t).view.read (Elt Ideal) (sumArr m c) := by
  have h488 : t.val % 489 = 488 := (flush0_2 t).mp hf
  show (cfg0.win 2).cut (grid0.coords t) ((dats m 0 c).after 2 t) = _
  rw [after0_2]
  funext y
  rw [View.read_apply, cast_eq]
  exact blk2_point m c t h488 y

theorem flushed3_eq (c : Dev nD) (t : Fin cfg0.N) (hf : (cfg0.win 3).flush t = true) :
    (dats m 0 c).flushed 3 t = ((cfg0.win 3).blk t).view.read (Elt Ideal) (cntArr m c) := by
  have h488 : t.val % 489 = 488 := (flush0_3 t).mp hf
  show (cfg0.win 3).cut (grid0.coords t) ((dats m 0 c).after 3 t) = _
  rw [after0_3]
  funext y
  rw [View.read_apply, cast_eq]
  exact blk3_point m c t h488 y

/-- The write-back point of the node block that holds row r. -/
def lastPt (r : ℕ) (hr : r < 100000) : Fin cfg0.N :=
  ⟨r / 2000 * 489 + 488, by show _ < grid0.N; rw [N_0]; omega⟩

/-- THE SUM ARRAY after the region. -/
theorem final2 (c : Dev nD) : (dats m 0 c).arrAt 2 cfg0.N = sumArr m c :=
  (dats m 0 c).arrAt_eq_of_cover 2 (sumArr m c) (flushed2_eq m c) fun i => by
    have h0 : (i 0 : Nat) < 100000 := (i 0).isLt
    have h1 : (i 1 : Nat) < 64 := (i 1).isLt
    refine ⟨lastPt (i 0).val h0, (flush0_2 _).mpr (by show ((i 0).val / 2000 * 489 + 488) % 489 = 488; omega), ?_⟩
    obtain ⟨e0, e1⟩ := idx_w2 (lastPt (i 0).val h0)
    have ev : (lastPt (i 0).val h0).val / 489 = (i 0).val / 2000 := by
      show ((i 0).val / 2000 * 489 + 488) / 489 = _; omega
    show i ∈ ((View.whole main_v13_0).slice (win0_2.rect (lastPt (i 0).val h0))).set
    rw [View.set_slice_whole, Rect.mem_set_unit]
    intro a
    match a with
    | ⟨0, _⟩ =>
      show win0_2.index (lastPt (i 0).val h0) 0 * 2000 ≤ (i 0 : Nat)
        ∧ (i 0 : Nat) < win0_2.index (lastPt (i 0).val h0) 0 * 2000 + 2000
      rw [e0, ev]; omega
    | ⟨1, _⟩ =>
      show win0_2.index (lastPt (i 0).val h0) 1 * 64 ≤ (i 1 : Nat)
        ∧ (i 1 : Nat) < win0_2.index (lastPt (i 0).val h0) 1 * 64 + 64
      rw [e1]; omega

/-- THE COUNT ARRAY after the region. -/
theorem final3 (c : Dev nD) : (dats m 0 c).arrAt 3 cfg0.N = cntArr m c :=
  (dats m 0 c).arrAt_eq_of_cover 3 (cntArr m c) (flushed3_eq m c) fun i => by
    have h0 : (i 0 : Nat) < 100000 := (i 0).isLt
    have h1 : (i 1 : Nat) < 1 := (i 1).isLt
    refine ⟨lastPt (i 0).val h0, (flush0_3 _).mpr (by show ((i 0).val / 2000 * 489 + 488) % 489 = 488; omega), ?_⟩
    obtain ⟨e0, e1⟩ := idx_w3 (lastPt (i 0).val h0)
    have ev : (lastPt (i 0).val h0).val / 489 = (i 0).val / 2000 := by
      show ((i 0).val / 2000 * 489 + 488) / 489 = _; omega
    show i ∈ ((View.whole main_v13_1).slice (win0_3.rect (lastPt (i 0).val h0))).set
    rw [View.set_slice_whole, Rect.mem_set_unit]
    intro a
    match a with
    | ⟨0, _⟩ =>
      show win0_3.index (lastPt (i 0).val h0) 0 * 2000 ≤ (i 0 : Nat)
        ∧ (i 0 : Nat) < win0_3.index (lastPt (i 0).val h0) 0 * 2000 + 2000
      rw [e0, ev]; omega
    | ⟨1, _⟩ =>
      show win0_3.index (lastPt (i 0).val h0) 1 * 1 ≤ (i 1 : Nat)
        ∧ (i 1 : Nat) < win0_3.index (lastPt (i 0).val h0) 1 * 1 + 1
      rw [e1]; omega

end Cert.KernelIdeal.Agg

end
-- ==== Proof.Result.lean ====
import proofs.«423663_j88734024335500_1_alg».proof.Proof.Gen.KernelIdeal.Frame
import proofs.«423663_j88734024335500_1_alg».proof.Proof.Final
import Idealize.ShloMosaic.Lib.Pipeline.Value
import Idealize.ShloMosaic.Lib.ValueIdx
import Idealize.ShloMosaic.Lib.StableHlo.Run

/-!
# The kernel's result is the mean of incoming messages

After the region the host divides the sum array by max(count, 1) and keeps the quotient where the count is positive.
The sum array holds one-hot weighted sums over the PADDED edge list; the padding edges carry the word of −1, which is
no node's word, so they contribute nothing, and on the first 1000000 edges the weight of edge e for node n is one
exactly when its destination word, read signed, is n: the weighted sum is the sum over the edges that reach n, and the
sum of the weights their number.
-/

noncomputable section

open scoped BigOperators

namespace Cert.KernelIdeal.Agg

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A word is node n's word exactly when, read signed, it is n. -/
theorem eq_nodeW_iff (x : BitVec 32) (n : ℕ) (hn : n < 100000) : x = nodeW n ↔ x.toInt = (n : ℤ) := by
  unfold nodeW
  have hx : x.toNat < 4294967296 := x.isLt
  have key : x.toInt = (n : ℤ) ↔ x.toNat = n := by
    rw [BitVec.toInt_eq_toNat_cond]
    split <;> omega
  rw [key]
  constructor
  · rintro rfl
    rw [BitVec.toNat_ofNat]
    exact Nat.mod_eq_of_lt (by omega)
  · intro h
    apply BitVec.eq_of_toNat_eq
    rw [h, BitVec.toNat_ofNat]
    exact (Nat.mod_eq_of_lt (by omega)).symm

/-- The padding word names no node. -/
theorem pad_ne_nodeW (n : ℕ) (hn : n < 100000) : (4294967295#32 : BitVec 32) ≠ nodeW n := by
  unfold nodeW
  intro h
  have := congrArg BitVec.toNat h
  simp only [BitVec.toNat_ofNat, Nat.reducePow] at this
  omega

/-! ## The padded sums are the sums over the edges that reach the node -/

theorem dW_lt (c : Dev nD) (e : Fin 1000000) : dW m c e.val = dstA m c (ix1 e) := by
  have he := e.isLt
  unfold dW
  rw [dif_pos (by omega)]
  exact dstPad_apply_lt m c ⟨e.val, by omega⟩ e.isLt

theorem dW_ge (c : Dev nD) (e : ℕ) (h : 1000000 ≤ e) : dW m c e = 4294967295#32 := by
  unfold dW
  split
  · next hlt => exact dstPad_apply_ge m c ⟨e, hlt⟩ h
  · rfl

theorem mE_lt (c : Dev nD) (e : Fin 1000000) (q : Fin 64) : mE m c e.val q = Cert.Agg.msg (featA m c) (srcA m c) e q := by
  have he := e.isLt
  unfold mE
  rw [dif_pos (by omega)]
  exact msgPad_apply_lt m c ⟨e.val, by omega⟩ e.isLt q

/-- THE SUM ARRAY at (n, q) is the sum of the messages that reach node n. -/
theorem sumArr_apply (c : Dev nD) (n : Fin 100000) (q : Fin 64) :
    sumArr m c (ix2 n q) = Cert.Agg.nsum (featA m c) (srcA m c) (dstA m c) n q := by
  have hn := n.isLt
  unfold sumArr
  show ∑ e ∈ Finset.range (1000000 + 1472), sTerm m c n.val q e = _
  rw [Cert.Agg.sum_range_of_tail_zero _ 1000000 1472 (fun e he => by
    unfold sTerm
    rw [dW_ge m c e he, if_neg (pad_ne_nodeW n.val hn), zero_mul])]
  unfold Cert.Agg.nsum
  rw [← Cert.Agg.sum_onehot_mul]
  refine Finset.sum_congr rfl fun e _ => ?_
  unfold sTerm
  rw [dW_lt, mE_lt]
  exact congrArg (· * _) (if_congr (eq_nodeW_iff _ _ hn) rfl rfl)

/-- THE COUNT ARRAY at n is the number of edges that reach node n. -/
theorem cntArr_apply (c : Dev nD) (n : Fin 100000) :
    cntArr m c (ix2 n (0 : Fin 1)) = Cert.Agg.deg (dstA m c) n := by
  have hn := n.isLt
  unfold cntArr
  show ∑ e ∈ Finset.range (1000000 + 1472), cTerm m c n.val e = _
  rw [Cert.Agg.sum_range_of_tail_zero _ 1000000 1472 (fun e he => by
    unfold cTerm
    rw [dW_ge m c e he, if_neg (pad_ne_nodeW n.val hn)])]
  unfold Cert.Agg.deg
  rw [← Cert.Agg.sum_onehot]
  refine Finset.sum_congr rfl fun e _ => ?_
  unfold cTerm
  rw [dW_lt]
  exact if_congr (eq_nodeW_iff _ _ hn) rfl rfl

/-! ## The host operations after the region -/

/-- The host operations after the region, as one function of the sum array and the count array. -/
def tailFn (S : Vec Ideal S100000x64 .f32) (D : Vec Ideal S100000x1 .f32) : Vec Ideal S100000x64 .f32 :=
  select (broadcastInDim S100000x64 ![0, 1] bcast_S100000x1_S100000x64_0_1
      (cmpf .ogt D (broadcastInDim S100000x1 ![] bcast_S_S100000x1 (constant (F := Ideal) S_ .f32 0x00000000#32))))
    (Host.divf (F := Ideal) S (broadcastInDim S100000x64 ![0, 1] bcast_S100000x1_S100000x64_0_1
      (maximumf D (broadcastInDim S100000x1 ![] bcast_S_S100000x1 (constant (F := Ideal) S_ .f32 0x3F800000#32)))))
    (broadcastInDim S100000x64 ![] bcast_S_S100000x64 (constant (F := Ideal) S_ .f32 0x00000000#32))

/-- What the result buffer holds after the tail: the tail's function of the two arrays as the region left them. -/
theorem tail_eq (c : Dev nD) :
    Pipeline.afterTail₀ cfgs (dats m) 0 (V0 m) [hostOps1, hostOps1_1] c main_v20
      = tailFn (Pipeline.withArrays (cfgs 0).spec c (V0 m c) (fun w => (dats m 0 c).arrAt w (cfgs 0).N) (Proc.devRef .tc main_v13_0))
          (Pipeline.withArrays (cfgs 0).spec c (V0 m c) (fun w => (dats m 0 c).arrAt w (cfgs 0).N) (Proc.devRef .tc main_v13_1)) := by
  unfold Pipeline.afterTail₀ tailFn
  simp only [hostOps1, hostOps1_1, List.flatten_cons, List.flatten_nil, List.append_nil, List.cons_append, List.nil_append]
  after_results
  all_goals rfl

/-- A count column broadcast along the 64 entries reads, at (n, k), the column at n. -/
theorem bcast_col_apply {α : Type} (v : S100000x1.Idx → α) (n : Fin 100000) (k : Fin 64) :
    broadcastInDim S100000x64 ![0, 1] bcast_S100000x1_S100000x64_0_1 v (ix2 n k) = v (ix2 n (0 : Fin 1)) :=
  broadcastInDim_apply _ bcast_S100000x1_S100000x64_0_1 v (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-- The tail at (n, k): the mean from the sum at (n, k) and the count at n. -/
theorem tailFn_apply (S : Vec Ideal S100000x64 .f32) (D : Vec Ideal S100000x1 .f32) (n : Fin 100000) (k : Fin 64) :
    tailFn S D (ix2 n k) = Cert.Agg.meanAt (S (ix2 n k)) (D (ix2 n (0 : Fin 1))) := by
  unfold tailFn Cert.Agg.meanAt
  rw [select_apply, bcast_col_apply]
  show Scalar.select (FloatOps.cmpf (F := Ideal) (φ := .f32) .ogt (D (ix2 n (0 : Fin 1))) _)
    (Ideal.div (S (ix2 n k)) (broadcastInDim S100000x64 ![0, 1] bcast_S100000x1_S100000x64_0_1
      (maximumf D (broadcastInDim S100000x1 ![] bcast_S_S100000x1 (constant (F := Ideal) S_ .f32 0x3F800000#32))) (ix2 n k))) _ = _
  rw [bcast_col_apply]
  rfl

/-- THE KERNEL'S RESULT is the mean of incoming messages. -/
theorem result_eq (c : Dev nD) :
    Pipeline.afterTail₀ cfgs (dats m) 0 (V0 m) [hostOps1, hostOps1_1] c main_v20
      = Cert.Agg.G (featA m c) (srcA m c) (dstA m c) := by
  rw [tail_eq]
  have hS : Pipeline.withArrays (cfgs 0).spec c (V0 m c) (fun w => (dats m 0 c).arrAt w (cfgs 0).N) (Proc.devRef .tc main_v13_0)
      = sumArr m c := (Pipeline.withArrays_arr spec0 launch0.win.arr_inj c _ _ 2).trans (final2 m c)
  have hD : Pipeline.withArrays (cfgs 0).spec c (V0 m c) (fun w => (dats m 0 c).arrAt w (cfgs 0).N) (Proc.devRef .tc main_v13_1)
      = cntArr m c := (Pipeline.withArrays_arr spec0 launch0.win.arr_inj c _ _ 3).trans (final3 m c)
  rw [hS, hD]
  funext i
  obtain ⟨n, k, rfl⟩ : ∃ (n : Fin 100000) (k : Fin 64), i = ix2 n k := ⟨i 0, i 1, eq_ix2 i⟩
  rw [tailFn_apply, sumArr_apply, cntArr_apply]
  rfl

/-- THE KERNEL'S RUN, read: every weakly fair execution terminates with the result at the mean of incoming messages
    and the three arguments unchanged. -/
theorem run : θ_run defs (onTc (τ := τ) (main (F := Ideal))) ⟨m, fun _ => 0, ρ⟩ (fun r => ∀ c : Dev nD,
      r.2.mem ((c.tc : Thread nD τ).loc main_v20) = Cert.Agg.G (featA m c) (srcA m c) (dstA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Agg

end
-- ==== Proof.LibSegment1.lean ====
import Idealize.ShloMosaic.PureOps.Ideal
import Idealize.ShloMosaic.Lib.ValueIdx
import Idealize.ShloMosaic.Lib.StableHlo.Predicate
import Mathlib.Algebra.BigOperators.Group.Finset.Basic

/-!
# Entry-wise scatter-add, read at an index

The index-level read of the host's accumulating scatter on a rank-1 operand of N entries whose ENTRIES are addressed
by an [E × 1] column of start indices, the updates being a vector of E single values.

Update e is added into the operand entry named by the e-th start index, read as a signed integer; an update whose
start index is negative or at least N is dropped. At n the result is the operand there plus the sum of the updates
whose start index is n.

The operand's one axis is start-indexed and inserted, so there is no window: the landing position of update e is its
start index alone.
-/

noncomputable section

open scoped BigOperators

namespace Cert.Segment

open Idealize.ShloMosaic Idealize.ShloMosaic.ValueIdx
open Idealize.ShloMosaic.StableHlo.Predicate (ixP)

/-! ## The scatter: where update e lands -/

section ScatterEntries

variable {N E w : Nat} (d : ScatterDims ⟨1, ![N]⟩ ⟨2, ![E, 1]⟩ ⟨1, ![E]⟩)

/-- A rank-1 index has one axis; its coordinate there is the entry it was built from. -/
private theorem ix1_val {n : Nat} (a : Fin n) (X : Fin 1) : ((ix1 a) X).val = a.val := by
  have hX : X = 0 := Subsingleton.elim _ _
  subst hX; rfl

/-- The start-indices index update e reads its one start component at: row e of the column. -/
theorem siIdx_entries (hsd : d.scatterDimsToOperandDims = [0]) (hivd : d.indexVectorDim = 1)
    (e : Fin E) (c : Fin d.scatterDimsToOperandDims.length) :
    d.siIdx (ix1 e) c = ixP e := by
  funext b
  match b with
  | ⟨0, _⟩ =>
    -- the column's axis 0 is read by the updates' one axis, whichever position the lists give it
    unfold ScatterDims.siIdx
    rw [dif_neg (by rw [hivd]; simp)]
    unfold ScatterDims.siCoord
    apply Fin.ext
    simp only [Fin.val_cast]
    exact ix1_val e _
  | ⟨1, _⟩ =>
    -- the column's axis 1 is the index vector's; the start index has one component, number 0
    unfold ScatterDims.siIdx
    rw [dif_pos (by rw [hivd])]
    apply Fin.ext
    show c.val = 0
    have hl : d.scatterDimsToOperandDims.length = 1 := by rw [hsd]; rfl
    have := c.isLt
    omega

/-- On the operand's one axis the window of update e starts at the start index of row e, read signed. -/
theorem start_entries (hsd : d.scatterDimsToOperandDims = [0]) (hivd : d.indexVectorDim = 1)
    (idx : IVec ⟨2, ![E, 1]⟩ w) (e : Fin E) :
    d.start (ix1 e) idx (0 : Fin 1) = (idx (ixP e)).toInt := by
  unfold ScatterDims.start
  rw [dif_pos (show (0 : Fin 1) ∈ d.scatterDimsToOperandDims by rw [hsd]; exact List.mem_singleton.mpr rfl),
    siIdx_entries d hsd hivd]

/-- The operand's one axis is inserted: the window coordinate there is 0. -/
theorem window_entries (hiw : d.insertedWindowDims = [0]) (e : Fin E) :
    d.window (ix1 e) (0 : Fin 1) = 0 := by
  unfold ScatterDims.window
  rw [dif_neg]
  intro h
  have h2 := (List.mem_filter.1 h).2
  rw [hiw] at h2
  simp at h2

/-- WHERE AN UPDATE LANDS. Update e lands on entry n exactly when the start index of row e, read signed, is n; with a
    start index that is negative or at least N it lands nowhere. -/
theorem resultIdx?_entries (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ixP e)).toInt = (n.val : ℤ) := by
  have hs0 := start_entries d hsd hivd idx e
  have hw0 := window_entries d hiw e
  have hn := n.isLt
  unfold ScatterDims.resultIdx?
  constructor
  · intro h
    split at h
    · next hc =>
      have h' := Option.some.inj h
      have h0 : (d.start (ix1 e) idx (0 : Fin 1) + (d.window (ix1 e) (0 : Fin 1) : ℤ)).toNat = n.val :=
        congrArg (fun f : (⟨1, ![N]⟩ : Shape).Idx => (f (0 : Fin 1)).val) h'
      have hc0 := (hc (0 : Fin 1)).1
      rw [hs0, hw0] at h0 hc0
      omega
    · exact absurd h (by simp)
  · intro h0
    have hc : ∀ a, 0 ≤ d.start (ix1 e) idx a + (d.window (ix1 e) a : ℤ)
        ∧ d.start (ix1 e) idx a + (d.window (ix1 e) a : ℤ) < ((⟨1, ![N]⟩ : Shape).size a : ℤ) := by
      intro a
      have ha : a = 0 := Subsingleton.elim _ _
      subst ha
      rw [hs0, hw0]
      show 0 ≤ _ ∧ _ < (N : ℤ)
      omega
    rw [dif_pos hc]
    congr 1
    funext a
    have ha : a = 0 := Subsingleton.elim _ _
    subst ha
    apply Fin.ext
    show (d.start (ix1 e) idx (0 : Fin 1) + (d.window (ix1 e) (0 : Fin 1) : ℤ)).toNat = n.val
    rw [hs0, hw0]; omega

/-- THE SCATTER READ AT n: the operand there plus the updates whose start index, read signed, is n. (The updates have
    no window axis, so an update index is a row e of the column, and it lands on n exactly when its start index is n.) -/
theorem hostScatterAdd_entries (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ixP e)).toInt = (n.val : ℤ)), upd (ix1 e) := by
  -- with no window axis among the updates, every update axis is a scatter axis: nothing more is asked of that list
  have _ := huw
  unfold Ideal.hostScatterAdd
  congr 1
  -- every update index is a single row e; it is in the left sum exactly when its start index is n
  have hrow : ∀ j : (⟨1, ![E]⟩ : Shape).Idx,
      d.resultIdx? j idx = some (ix1 n) ↔ (idx (ixP (j 0))).toInt = (n.val : ℤ) := by
    intro j
    obtain ⟨a, rfl⟩ : ∃ a, j = ix1 a := ⟨_, eq_ix1 j⟩
    exact resultIdx?_entries d hiw hsd hivd idx a n
  refine Finset.sum_nbij' (fun j => j 0) (fun e => ix1 e) ?_ ?_ ?_ ?_ ?_
  · intro j hj
    exact Finset.mem_filter.2 ⟨Finset.mem_univ _, (hrow j).1 (Finset.mem_filter.1 hj).2⟩
  · intro e he
    exact Finset.mem_filter.2 ⟨Finset.mem_univ _, (hrow (ix1 e)).2 (Finset.mem_filter.1 he).2⟩
  · intro j _
    exact (eq_ix1 j).symm
  · intro e _
    rfl
  · intro j _
    exact congrArg upd (eq_ix1 j)

end ScatterEntries

end Cert.Segment

end
-- ==== Proof.RefRun.lean ====
import proofs.«423663_j88734024335500_1_alg».proof.Proof.RefRunGen
import proofs.«423663_j88734024335500_1_alg».proof.Proof.RefReadGen
import proofs.«423663_j88734024335500_1_alg».proof.Proof.Spec
import proofs.«423663_j88734024335500_1_alg».proof.Proof.LibSegment
import proofs.«423663_j88734024335500_1_alg».proof.Proof.LibSegment1
import Idealize.ShloMosaic.Lib.ValueIdx
import Idealize.ShloMosaic.Lib.StableHlo.Predicate
import Idealize.ShloMosaic.PureOps.Ideal.Laws

/-!
# The reference computes the mean of incoming messages

Stage by stage: the source words are wrapped and the feature rows gathered (the messages); the messages are
scatter-added by destination word into a zero table (the sums), and ones are scatter-added the same way into a zero
vector (the counts); the sums are divided by max(count, 1) and kept where the count is positive. The two scatters are
read at an index as sums over the edges whose destination word, read signed, is the node; everything else is read one
element at a time.
-/

noncomputable section

namespace Cert.ReferenceIdeal.RefValue

open Cert.ReferenceIdeal Cert.ReferenceIdeal.Read
open Idealize.ShloMosaic Idealize.ShloMosaic.ValueIdx
open Idealize.ShloMosaic.StableHlo.Predicate (ixP)

/-- The host's accumulating scatter, read at the extended reals, is the exact sum of the updates that land on each
    element (for any shapes). -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- Row e of the index column is edge e. -/
theorem col_v5 (e : Fin 1000000) : idx_main_v5 (ixP e) = ix1 e := funext fun a => match a with | ⟨0, _⟩ => rfl
theorem col_v8 (e : Fin 1000000) : idx_main_v8 (ixP e) = ix1 e := funext fun a => match a with | ⟨0, _⟩ => rfl
theorem col_v12 (e : Fin 1000000) : idx_main_v12 (ixP e) = ix1 e := funext fun a => match a with | ⟨0, _⟩ => rfl

/-- The gather's start index of edge e is its wrapped source word. -/
theorem srcCol_apply (x1 : (⟨S1000000, .i32⟩ : BufTy).Contents (Elt Ideal)) (e : Fin 1000000) :
    val_main_v5 (F := Ideal) x1 (ixP e) = Cert.Agg.wrap (x1 (ix1 e)) := by
  rw [val_main_v5_apply, col_v5]
  rfl

/-- The destination column of either scatter at edge e is the destination word. -/
theorem dstCol8_apply (x2 : (⟨S1000000, .i32⟩ : BufTy).Contents (Elt Ideal)) (e : Fin 1000000) :
    val_main_v8 (F := Ideal) x2 (ixP e) = x2 (ix1 e) := by
  rw [val_main_v8_apply, col_v8]

theorem dstCol12_apply (x2 : (⟨S1000000, .i32⟩ : BufTy).Contents (Elt Ideal)) (e : Fin 1000000) :
    val_main_v12 (F := Ideal) x2 (ixP e) = x2 (ix1 e) := by
  rw [val_main_v12_apply, col_v12]

/-- THE MESSAGES: row e of the gather is the feature row of the source node of edge e. -/
theorem msg_apply (x0 : (⟨S100000x64, .f32⟩ : BufTy).Contents (Elt Ideal)) (x1 : (⟨S1000000, .i32⟩ : BufTy).Contents (Elt Ideal))
    (e : Fin 1000000) (k : Fin 64) :
    val_main_v6 (F := Ideal) x0 x1 (ix2 e k) = Cert.Agg.msg x0 x1 e k := by
  unfold val_main_v6
  rw [Cert.Segment.gather_rows gather_S100000x64_S1000000x1_S1000000x64_1_0_n_n_0_1_164 rfl rfl rfl rfl rfl x0
    (val_main_v5 (F := Ideal) x1) e k (by decide)]
  unfold Cert.Agg.msg Cert.Agg.row
  refine congrArg x0 (congrArg (fun r => ix2 r k) (Fin.ext ?_))
  show min (val_main_v5 (F := Ideal) x1 (ixP e)).toInt.toNat (100000 - 1) = min (Cert.Agg.wrap (x1 (ix1 e))).toInt.toNat 99999
  rw [srcCol_apply]

/-- THE SUMS: the scatter-add of the messages into the zero table, at (n, k). -/
theorem sum_apply (x0 : (⟨S100000x64, .f32⟩ : BufTy).Contents (Elt Ideal)) (x1 x2 : (⟨S1000000, .i32⟩ : BufTy).Contents (Elt Ideal))
    (n : Fin 100000) (k : Fin 64) :
    val_main_v9 (F := Ideal) x0 x1 x2 (ix2 n k) = Cert.Agg.nsum x0 x1 x2 n k := by
  unfold val_main_v9
  rw [scatterAdd_ideal]
  rw [Cert.Segment.hostScatterAdd_rows scatter_S100000x64_S1000000x1_S1000000x64_1_0_0_1 rfl rfl rfl rfl]
  have h0 : val_main_v7 (F := Ideal) (ix2 n k) = 0 := by
    rw [val_main_v7_apply, val_main_cst_apply]
    exact Ideal.ofBits_zero_f32
  rw [h0, zero_add]
  unfold Cert.Agg.nsum
  simp only [dstCol8_apply, msg_apply]

/-- THE COUNTS: the scatter-add of ones into the zero vector, at n. -/
theorem deg_apply (x2 : (⟨S1000000, .i32⟩ : BufTy).Contents (Elt Ideal)) (n : Fin 100000) :
    val_main_v13 (F := Ideal) x2 (ix1 n) = Cert.Agg.deg x2 n := by
  unfold val_main_v13
  rw [scatterAdd_ideal]
  rw [Cert.Segment.hostScatterAdd_entries scatter_S100000_S1000000x1_S1000000_n_0_0_1 rfl rfl rfl rfl]
  have h0 : val_main_v11 (F := Ideal) (ix1 n) = 0 := by
    rw [val_main_v11_apply, val_main_cst_2_apply]
    exact Ideal.ofBits_zero_f32
  have h1 : ∀ e : Fin 1000000, val_main_v10 (F := Ideal) (ix1 e) = 1 := fun e => by
    rw [val_main_v10_apply, val_main_cst_1_apply]
    exact Cert.Agg.ofBits_one_f32
  rw [h0, zero_add]
  unfold Cert.Agg.deg
  simp only [dstCol12_apply, h1]

/-- Where the count column is read for (n, k): at node n. -/
theorem col_v16 (i : S100000x1.Idx) : idx_main_v16 i = ix1 (i 0) := funext fun a => match a with | ⟨0, _⟩ => rfl
theorem col_v19 (i : S100000x1.Idx) : idx_main_v19 i = ix1 (i 0) := funext fun a => match a with | ⟨0, _⟩ => rfl

/-- THE REFERENCE'S RESULT is the mean of incoming messages. -/
theorem result_eq (x0 : (⟨S100000x64, .f32⟩ : BufTy).Contents (Elt Ideal)) (x1 x2 : (⟨S1000000, .i32⟩ : BufTy).Contents (Elt Ideal)) :
    val_main_v22 (F := Ideal) x0 x1 x2 = Cert.Agg.G x0 x1 x2 := by
  funext i
  obtain ⟨n, k, rfl⟩ : ∃ (n : Fin 100000) (k : Fin 64), i = ix2 n k := ⟨i 0, i 1, eq_ix2 i⟩
  rw [val_main_v22_apply, val_main_call0_v0_apply, val_main_v18_apply, val_main_v16_apply, val_main_v17_apply,
    val_main_cst_4_apply, val_main_v21_apply, val_main_v20_apply, val_main_v19_apply, val_main_v15_apply,
    val_main_v14_apply, val_main_cst_3_apply, val_main_call0_v1_apply, val_main_cst_5_apply, col_v16, col_v19,
    sum_apply]
  show Scalar.select (FloatOps.cmpf (F := Ideal) (φ := .f32) .ogt (val_main_v13 (F := Ideal) x2 (ix1 n)) _)
    (FloatOps.hostDivf (F := Ideal) (φ := .f32) _ (FloatOps.maximumf (F := Ideal) (φ := .f32) (val_main_v13 (F := Ideal) x2 (ix1 n)) _)) _ = _
  rw [deg_apply]
  rfl

end Cert.ReferenceIdeal.RefValue

end
-- ==== Proof.lean ====
/- Mean aggregation over a graph's incoming edges: the Pallas kernel against its jnp reference.

   Both programs gather the feature row of each edge's source node (the source word wrapped as jnp wraps a negative
   index, then clamped into the table). The reference scatter-adds those rows, and ones, by destination word: a
   destination word that is negative or past the last node reaches no node. The kernel pads the edge list to
   489 blocks of 2048 edges with destination word −1 and, for each block of 2000 nodes, accumulates over the edge
   blocks the product of a one-hot weight matrix (is the edge's destination word this node's word?) with the messages,
   and the row sums of the weights. Over the extended reals 0 · x = 0 and 1 · x = x for every x and finite sums may be
   regrouped freely, so the accumulated weighted sums are the sums over the edges that reach each node and the weight
   sums their number; the padding edges reach no node. Both programs then divide the sums by max(count, 1) and keep
   the quotient where the count is positive. No finiteness of the features is needed.

   The three frames: the two kernel programs' are the generated frame certificates; the reference's is its run with
   the result dropped. The idealization rewrote nothing. -/
import proofs.«423663_j88734024335500_1_alg».proof.Defs
import proofs.«423663_j88734024335500_1_alg».proof.Proof.Gen.Kernel
import proofs.«423663_j88734024335500_1_alg».proof.Proof.Gen.Kernel.Skeleton
import proofs.«423663_j88734024335500_1_alg».proof.Proof.Gen.Kernel.Launch
import proofs.«423663_j88734024335500_1_alg».proof.Proof.Gen.Kernel.Points
import proofs.«423663_j88734024335500_1_alg».proof.Proof.Gen.Kernel.Frame
import proofs.«423663_j88734024335500_1_alg».proof.Proof.Gen.KernelIdeal
import proofs.«423663_j88734024335500_1_alg».proof.Proof.Gen.KernelIdeal.Skeleton
import proofs.«423663_j88734024335500_1_alg».proof.Proof.Gen.KernelIdeal.Launch
import proofs.«423663_j88734024335500_1_alg».proof.Proof.Gen.KernelIdeal.Points
import proofs.«423663_j88734024335500_1_alg».proof.Proof.Gen.KernelIdeal.Frame
import proofs.«423663_j88734024335500_1_alg».proof.Proof.Gen.ReferenceIdeal
import proofs.«423663_j88734024335500_1_alg».proof.Proof.Gen.Pre_finite_inputs
import proofs.«423663_j88734024335500_1_alg».proof.Proof.Result
import proofs.«423663_j88734024335500_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the mean of incoming messages of arguments that agree: the kernel
    by its accumulated one-hot sums, the reference by its two scatter-adds. -/
theorem algebraic : Cert.algebraic_KernelIdeal_ReferenceIdeal := by
  intro m ρ m' ρ' _ hagree
  refine ⟨fun c => Cert.Agg.G (Cert.KernelIdeal.Agg.featA m c) (Cert.KernelIdeal.Agg.srcA m c) (Cert.KernelIdeal.Agg.dstA m c),
    Cert.KernelIdeal.Agg.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
